-- ==== Defs.lean ====
def Pre_Kernel [hPre_any_inputs : Cert.Pre_any_inputs.Facts] (m : (ℓ : Loc Cert.Kernel.nD Cert.Kernel.τ Cert.Kernel.sig) → Buf (Elt Bits) ℓ) : Prop :=
  ∀ c : Dev Cert.Kernel.nD,
    (Cert.Pre_any_inputs.fn (F := Bits) (m ((c.tc : Thread Cert.Kernel.nD Cert.Kernel.τ).loc Cert.Kernel.main_arg0))) = (fun _ => 1#1)

def Pre_KernelIdeal [hPre_any_inputs : Cert.Pre_any_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_any_inputs.fn (F := Ideal) (m ((c.tc : Thread Cert.KernelIdeal.nD Cert.KernelIdeal.τ).loc Cert.KernelIdeal.main_arg0))) = (fun _ => 1#1)

def Pre_ReferenceIdeal [hPre_any_inputs : Cert.Pre_any_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_any_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_any_inputs : Cert.Pre_any_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_any_inputs : Cert.Pre_any_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_any_inputs : Cert.Pre_any_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_any_inputs : Cert.Pre_any_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_any_inputs : Cert.Pre_any_inputs.Facts),
    frame_Kernel (hKernel := hKernel) (hPre_any_inputs := hPre_any_inputs)
    ∧ frame_KernelIdeal (hKernelIdeal := hKernelIdeal) (hPre_any_inputs := hPre_any_inputs)
    ∧ frame_ReferenceIdeal (hReferenceIdeal := hReferenceIdeal) (hPre_any_inputs := hPre_any_inputs)
    ∧ preserves_Kernel_KernelIdeal
    ∧ algebraic_KernelIdeal_ReferenceIdeal (hKernelIdeal := hKernelIdeal) (hReferenceIdeal := hReferenceIdeal) (hPre_any_inputs := hPre_any_inputs)
-- ==== Pre_any_inputs.lean ====
abbrev S256x2048 : Shape := ⟨2, ![256, 2048]⟩
abbrev S_ : Shape := ⟨0, ![]⟩

class Facts : Prop where
  bcast_S_S256x2048 : S_.BroadcastsInDim S256x2048 (![] : Fin 0 → Fin S256x2048.rank)
  reducesTo_S256x2048_S_d0_1 : S256x2048.ReducesTo [0, 1] S_
  h_S_ : 0 < S_.numel

variable [Facts]

def fn {F : FTy → Type} [FloatOps F] (main_arg0 : IVec S256x2048 32) : IVec S_ 1 :=
  let main_c : IVec S_ 32 := constantI S_ 32 0#32
  let main_v0 : IVec S256x2048 32 := broadcastInDim S256x2048 ![] bcast_S_S256x2048 main_c
  let main_v1 : IVec S256x2048 1 := cmpi .sge main_arg0 main_v0
  let main_c_0 : IVec S_ 1 := constantI S_ 1 1#1
  let main_v2 : IVec S_ 1 := (fun x v => Host.reduce IntOp.andi x v reducesTo_S256x2048_S_d0_1 h_S_) main_v1 main_c_0
  let main_c_1 : IVec S_ 32 := constantI S_ 32 32000#32
  let main_v3 : IVec S256x2048 32 := broadcastInDim S256x2048 ![] bcast_S_S256x2048 main_c_1
  let main_v4 : IVec S256x2048 1 := cmpi .slt main_arg0 main_v3
  let main_c_2 : IVec S_ 1 := constantI S_ 1 1#1
  let main_v5 : IVec S_ 1 := (fun x v => Host.reduce IntOp.andi x v reducesTo_S256x2048_S_d0_1 h_S_) main_v4 main_c_2
  let main_v6 : IVec S_ 1 := andi main_v2 main_v5
  main_v6
-- ==== Kernel.lean ====
abbrev S256x2048 : Shape := ⟨2, ![256, 2048]⟩
abbrev S256x128x256 : Shape := ⟨3, ![256, 128, 256]⟩
abbrev S16x2048 : Shape := ⟨2, ![16, 2048]⟩
abbrev S16x128x256 : Shape := ⟨3, ![16, 128, 256]⟩
abbrev S1x128x1 : Shape := ⟨3, ![1, 128, 1]⟩
abbrev S1x256x1 : Shape := ⟨3, ![1, 256, 1]⟩
abbrev S16x1x2048 : Shape := ⟨3, ![16, 1, 2048]⟩
abbrev S16x128x2048 : Shape := ⟨3, ![16, 128, 2048]⟩
abbrev S16x256x2048 : Shape := ⟨3, ![16, 256, 2048]⟩
abbrev S256x32768 : Shape := ⟨2, ![256, 32768]⟩
abbrev S256x32000 : Shape := ⟨2, ![256, 32000]⟩

abbrev nBuf : Space → Nat
  | .hbm => 4
  | .vmem => 4
  | .smem => 0
  | _ => 0

abbrev bufTy : (tb : Table) → Fin (tcTables nBuf tb) → BufTy
  | .hbm, ⟨0, _⟩ => ⟨S256x2048, .i32⟩
  | .hbm, ⟨1, _⟩ => ⟨S256x128x256, .f32⟩
  | .hbm, ⟨2, _⟩ => ⟨S256x32768, .f32⟩
  | .hbm, ⟨3, _⟩ => ⟨S256x32000, .f32⟩
  | .local _ .vmem, ⟨0, _⟩ => ⟨S16x2048, .i32⟩
  | .local _ .vmem, ⟨1, _⟩ => ⟨S16x2048, .i32⟩
  | .local _ .vmem, ⟨2, _⟩ => ⟨S16x128x256, .f32⟩
  | .local _ .vmem, ⟨3, _⟩ => ⟨S16x128x256, .f32⟩
  | _, _ => ⟨S256x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S16x2048_S16x2048_0_0 : ∀ a, (![0, 0] : Fin 2 → Nat) a + S16x2048.size a ≤ S16x2048.size a
  h_S16x2048 : 0 < S16x2048.numel
  iota_S1x128x1_d1_w32 : S1x128x1.Iotas .tc 32 [1]
  iota_S1x256x1_d1_w32 : S1x256x1.Iotas .tc 32 [1]
  shapeCasts_S16x2048_S16x1x2048 : S16x2048.ShapeCasts S16x1x2048
  broadcasts_S16x1x2048_S16x128x2048 : S16x1x2048.Broadcasts S16x128x2048
  broadcasts_S1x128x1_S16x128x2048 : S1x128x1.Broadcasts S16x128x2048
  natLt_1_32 : 1 < 32
  bitsLt_bf16_f32 : FTy.bits .bf16 < FTy.bits .f32
  broadcasts_S16x1x2048_S16x256x2048 : S16x1x2048.Broadcasts S16x256x2048
  broadcasts_S1x256x1_S16x256x2048 : S1x256x1.Broadcasts S16x256x2048
  inb_S16x128x256_S16x128x256_0_0_0 : ∀ a, (![0, 0, 0] : Fin 3 → Nat) a + S16x128x256.size a ≤ S16x128x256.size a
  h_S16x128x256 : 0 < S16x128x256.numel
  shapeCasts_S256x128x256_S256x32768 : S256x128x256.ShapeCasts S256x32768
  slices_S256x32768_S256x32000_0_0 : S256x32768.Slices ![0, 0] S256x32000
  dot_S16x128x2048_S16x256x2048_S16x128x256_2_2_1_1_0_0_wf : DotDims.WF S16x128x2048 S16x256x2048 S16x128x256 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x2048.size a ≤ S256x2048.size a
  hwx0_0 : ∀ i : grid0.Coords, EltTy.bits .i32 = 32 ∨ (Rect.block (s := S256x2048) S16x2048.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x128x256.size a ≤ S256x128x256.size a
  hwx0_1 : ∀ i : grid0.Coords, EltTy.bits .f32 = 32 ∨ (Rect.block (s := S256x128x256) S16x128x256.size (cc0_transform_1 i) (hinb0_1 i)).WholeWords (EltTy.packing .f32)

variable [Facts₀]

def dot_S16x128x2048_S16x256x2048_S16x128x256_2_2_1_1_0_0 : DotDims S16x128x2048 S16x256x2048 S16x128x256 where
  lhsContracting := [2]
  rhsContracting := [2]
  lhsNonContracting := [1]
  rhsNonContracting := [1]
  lhsBatch := [0]
  rhsBatch := [0]
  wf := dot_S16x128x2048_S16x256x2048_S16x128x256_2_2_1_1_0_0_wf

abbrev win0_0 : Pipeline.Window sig grid0 :=
  Pipeline.Window.ofSpec (Memref.whole main_arg0) S16x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S16x128x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S256x2048 : Shape := ⟨2, ![256, 2048]⟩
abbrev S256 : Shape := ⟨1, ![256]⟩
abbrev S256x1 : Shape := ⟨2, ![256, 1]⟩
abbrev S_ : Shape := ⟨0, ![]⟩
abbrev S256x32000 : Shape := ⟨2, ![256, 32000]⟩
abbrev S256x2048x1 : Shape := ⟨3, ![256, 2048, 1]⟩
abbrev S256x2048x2 : Shape := ⟨3, ![256, 2048, 2]⟩

abbrev nBuf : Space → Nat
  | .hbm => 29
  | .vmem => 0
  | .smem => 0
  | _ => 0

abbrev bufTy : (tb : Table) → Fin (tcTables nBuf tb) → BufTy
  | .hbm, ⟨0, _⟩ => ⟨S256x2048, .i32⟩
  | .hbm, ⟨1, _⟩ => ⟨S256, .i32⟩
  | .hbm, ⟨2, _⟩ => ⟨S256x1, .i32⟩
  | .hbm, ⟨3, _⟩ => ⟨S_, .f32⟩
  | .hbm, ⟨4, _⟩ => ⟨S256x32000, .f32⟩
  | .hbm, ⟨5, _⟩ => ⟨S_, .i32⟩
  | .hbm, ⟨6, _⟩ => ⟨S256x1, .i32⟩
  | .hbm, ⟨7, _⟩ => ⟨S256x1, .i1⟩
  | .hbm, ⟨8, _⟩ => ⟨S_, .i32⟩
  | .hbm, ⟨9, _⟩ => ⟨S256x1, .i32⟩
  | .hbm, ⟨10, _⟩ => ⟨S256x1, .i32⟩
  | .hbm, ⟨11, _⟩ => ⟨S256x1, .i32⟩
  | .hbm, ⟨12, _⟩ => ⟨S_, .i32⟩
  | .hbm, ⟨13, _⟩ => ⟨S256x2048, .i32⟩
  | .hbm, ⟨14, _⟩ => ⟨S256x2048, .i1⟩
  | .hbm, ⟨15, _⟩ => ⟨S_, .i32⟩
  | .hbm, ⟨16, _⟩ => ⟨S256x2048, .i32⟩
  | .hbm, ⟨17, _⟩ => ⟨S256x2048, .i32⟩
  | .hbm, ⟨18, _⟩ => ⟨S256x2048, .i32⟩
  | .hbm, ⟨19, _⟩ => ⟨S256x2048, .i32⟩
  | .hbm, ⟨20, _⟩ => ⟨S256x2048x1, .i32⟩
  | .hbm, ⟨21, _⟩ => ⟨S256x2048x1, .i32⟩
  | .hbm, ⟨22, _⟩ => ⟨S256x2048x2, .i32⟩
  | .hbm, ⟨23, _⟩ => ⟨S_, .f32⟩
  | .hbm, ⟨24, _⟩ => ⟨S256x2048, .f32⟩
  | .hbm, ⟨25, _⟩ => ⟨S256x32000, .f32⟩
  | .hbm, ⟨26, _⟩ => ⟨S_, .f32⟩
  | .hbm, ⟨27, _⟩ => ⟨S256x32000, .f32⟩
  | .hbm, ⟨28, _⟩ => ⟨S256x32000, .f32⟩
  | _, _ => ⟨S256x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_c : Ref sig .tc := ⟨.hbm, 5, rfl⟩
abbrev main_v3 : Ref sig .tc := ⟨.hbm, 6, rfl⟩
abbrev main_v4 : Ref sig .tc := ⟨.hbm, 7, rfl⟩
abbrev main_c_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c_1 : Ref sig .tc := ⟨.hbm, 12, rfl⟩
abbrev main_v8 : Ref sig .tc := ⟨.hbm, 13, rfl⟩
abbrev main_v9 : Ref sig .tc := ⟨.hbm, 14, rfl⟩
abbrev main_c_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]

class Facts₀ : Prop where
  bcast_S256_S256x1_0 : S256.BroadcastsInDim S256x1 (![0] : Fin 1 → Fin S256x1.rank)
  bcast_S_S256x32000 : S_.BroadcastsInDim S256x32000 (![] : Fin 0 → Fin S256x32000.rank)
  bcast_S_S256x1 : S_.BroadcastsInDim S256x1 (![] : Fin 0 → Fin S256x1.rank)
  bcast_S_S256x2048 : S_.BroadcastsInDim S256x2048 (![] : Fin 0 → Fin S256x2048.rank)
  bcast_S256x1_S256x2048_0_1 : S256x1.BroadcastsInDim S256x2048 (![0, 1] : Fin 2 → Fin S256x2048.rank)
  bcast_S256x2048_S256x2048x1_0_1 : S256x2048.BroadcastsInDim S256x2048x1 (![0, 1] : Fin 2 → Fin S256x2048x1.rank)
  concatenates_S256x2048x1_S256x2048x1_S256x2048x2_d2 : Shape.Concatenates [S256x2048x1, S256x2048x1] S256x2048x2 2
  scatter_S256x32000_S256x2048x2_S256x2048_n_01_01_2_wf : ScatterDims.WF S256x32000 S256x2048x2 S256x2048 [] [0, 1] [0, 1] 2

variable [Facts₀]

def scatter_S256x32000_S256x2048x2_S256x2048_n_01_01_2 : ScatterDims S256x32000 S256x2048x2 S256x2048 where
  updateWindowDims := []
  insertedWindowDims := [0, 1]
  scatterDimsToOperandDims := [0, 1]
  indexVectorDim := 2
  wf := scatter_S256x32000_S256x2048x2_S256x2048_n_01_01_2_wf

class Facts : Prop extends Facts₀ where

variable [Facts]
-- ==== Proof.HistSpec.lean ====
/-
  The histogram both programs compute, and the arithmetic facts that identify them.

  `hist x (b, v)` is the number of positions `s` of row `b` whose token `x[b, s]` is `v`, divided by the row length
  2048. The kernel counts through two one-hot factors — the token's high part `x >> 8` against `h` and its low
  byte `x & 255` against `l` — whose product over `s` is summed by the matrix unit: for a non-negative word the
  two tests hold together exactly when the word is `256·h + l`. The reference counts by scattering a `1` to column
  `x[b, s]` of row `b`. Both then scale by `1/2048`, the kernel by multiplying with the exact power of two, the
  reference by dividing.
-/
import Idealize.ShloMosaic.Lib.ValueIdx
import Idealize.ShloMosaic.PureOps.Ideal.Laws

noncomputable section

open scoped BigOperators

namespace Cert.Hist

open Idealize.ShloMosaic Idealize.ShloMosaic.ValueIdx

/-! ## Words -/

/-- A word that is non-negative read signed is below `2^31` read unsigned. -/
theorem toNat_lt_of_nonneg (d : BitVec 32) (hd : 0 ≤ d.toInt) : d.toNat < 2147483648 := by
  have h := BitVec.toInt_eq_toNat_cond d
  have hlt : d.toNat < 4294967296 := d.isLt
  rw [h] at hd
  split at hd
  · omega
  · omega

/-- Read signed, a non-negative word is its unsigned reading. -/
theorem toInt_eq_toNat_of_nonneg (d : BitVec 32) (hd : 0 ≤ d.toInt) : d.toInt = (d.toNat : ℤ) := by
  have h := BitVec.toInt_eq_toNat_cond d
  have hn := toNat_lt_of_nonneg d hd
  rw [h, if_pos (by omega)]

/-- THE FACTORIZATION OF A TOKEN: for a non-negative word `d`, a high part `h < 128` and a low byte `l < 256`, the
    arithmetic shift `d >> 8` is `h` and the masked byte `d & 255` is `l` exactly when `d = 256·h + l`. -/
theorem split_word (d : BitVec 32) (hd : 0 ≤ d.toInt) (h l : ℕ) (hh : h < 128) (hl : l < 256) :
    (IntOp.shrsi .vector d 8#32 = BitVec.ofNat 32 h ∧ IntOp.andi d 255#32 = BitVec.ofNat 32 l)
      ↔ d.toNat = 256 * h + l := by
  have hn := toNat_lt_of_nonneg d hd
  have hmsb : d.msb = false := by
    rw [BitVec.msb_eq_false_iff_two_mul_lt]; omega
  have e1 : IntOp.shrsi .vector d 8#32 = d >>> 8 := by
    unfold IntOp.shrsi
    rw [if_pos (by decide)]
    show d.sshiftRight 8 = d >>> 8
    exact BitVec.sshiftRight_eq_of_msb_false hmsb
  have e2 : (d >>> 8).toNat = d.toNat / 256 := by
    rw [BitVec.toNat_ushiftRight, Nat.shiftRight_eq_div_pow]
  have e3 : (IntOp.andi d 255#32).toNat = d.toNat % 256 := by
    show (d &&& 255#32).toNat = _
    rw [BitVec.toNat_and]
    exact Nat.and_two_pow_sub_one_eq_mod d.toNat 8
  rw [e1, ← BitVec.toNat_inj, ← BitVec.toNat_inj, e2, e3, BitVec.toNat_ofNat, BitVec.toNat_ofNat]
  omega

/-- A small natural number, as a word, reads back signed as itself. -/
theorem toInt_ofNat_small (k : ℕ) (hk : k < 2147483648) : (BitVec.ofNat 32 k).toInt = (k : ℤ) := by
  have hmod : k % 4294967296 = k := Nat.mod_eq_of_lt (by omega)
  rw [BitVec.toInt_eq_toNat_cond, BitVec.toNat_ofNat]
  norm_num only
  rw [hmod, if_pos (by omega)]

/-- A non-negative word is not below zero: the signed comparison `d < 0` is false. -/
theorem cmpi_slt_zero_of_nonneg (d : BitVec 32) (hd : 0 ≤ d.toInt) : IntOp.cmpi .slt d 0#32 = 0#1 := by
  unfold IntOp.cmpi
  have h : d.slt 0#32 = false := by
    rw [BitVec.slt]
    simpa using hd
  simp only [h]
  rfl

/-- Index normalization leaves a non-negative index alone: `select (d < 0) a d = d`. -/
theorem select_slt_zero_of_nonneg (d a : BitVec 32) (hd : 0 ≤ d.toInt) :
    Scalar.select (IntOp.cmpi .slt d 0#32) a d = d := by
  rw [cmpi_slt_zero_of_nonneg d hd]
  exact select_zero a d

/-! ## One-hot entries and their products -/

/-- A one-hot entry: the comparison `a == b` widened to a word and converted to a float is `1` where the words are
    equal and `0` elsewhere. -/
theorem onehot_word (a b : BitVec 32) :
    FloatOps.sitofp (F := Ideal) .f32 ((IntOp.cmpi .eq a b).setWidth 32) = if a = b then (1 : EReal) else 0 := by
  show ((((IntOp.cmpi .eq a b).setWidth 32).toInt : ℝ) : EReal) = _
  unfold IntOp.cmpi
  by_cases h : a = b
  · subst h
    simp
  · have hb : (a == b) = false := by simpa using h
    simp [hb, h]

/-- A sum of products of indicators is the count of the positions where both tests hold. -/
theorem sum_indicator_mul {ι : Type} [Fintype ι] (P Q : ι → Prop) [DecidablePred P] [DecidablePred Q] :
    ∑ s, (if P s then (1 : EReal) else 0) * (if Q s then (1 : EReal) else 0)
      = ∑ s, if P s ∧ Q s then (1 : EReal) else 0 := by
  refine Finset.sum_congr rfl fun s _ => ?_
  by_cases hp : P s <;> by_cases hq : Q s <;> simp [hp, hq]

/-! ## The float constants -/

/-- The kernel's scale `0x3A000000` is the exact power of two `1/2048`. -/
theorem ofBits_inv2048 : Ideal.ofBits .f32 0x3A000000#32 = ((1 / 2048 : ℝ) : EReal) := by
  simp [Ideal.ofBits, Ideal.ieee, -EReal.coe_mul]; norm_num

/-- The reference's divisor `0x45000000` is `2048`. -/
theorem ofBits_2048 : Ideal.ofBits .f32 0x45000000#32 = ((2048 : ℝ) : EReal) := by
  simp [Ideal.ofBits, Ideal.ieee, -EReal.coe_mul]; norm_num

/-- The scattered update `0x3F800000` is `1`. -/
theorem ofBits_one : Ideal.ofBits .f32 0x3F800000#32 = 1 := by
  simp [Ideal.ofBits, Ideal.ieee, -EReal.coe_mul]; norm_num

/-! ## The histogram -/

/-- The normalized histogram of the rows of `x`: at `(b, v)` the number of positions of row `b` that hold the token
    `v`, times `1/2048`. -/
def hist (x : IVec ⟨2, ![256, 2048]⟩ 32) : (⟨2, ![256, 32000]⟩ : Shape).Idx → EReal := fun i =>
  (∑ s : Fin 2048, if (x (ix2 (i 0) s)).toNat = (i 1).val then (1 : EReal) else 0) * ((1 / 2048 : ℝ) : EReal)

end Cert.Hist

end
-- ==== Proof.TokenRange.lean ====
/-
  The precondition read back: every token indexes the vocabulary axis in range.

  The precondition is the conjunction of two whole-array tests, `all (x ≥ 0)` and `all (x < 32000)`, each a
  reduction by `and` of a signed comparison of the tokens with a constant. That it is `1` says each test is `1` at
  every entry.
-/
import proofs.«422579_j30631706755532_1_alg».proof.Proof.Gen.Pre_any_inputs
import Idealize.ShloMosaic.Lib.ReduceAll
import Idealize.ShloMosaic.Lib.ValueIdx

noncomputable section

namespace Cert.Pre_any_inputs.Range

open Cert.Pre_any_inputs Cert.Pre_any_inputs.Gen Idealize.ShloMosaic

instance : Subsingleton S_.Idx := ⟨fun a b => funext fun d => d.elim0⟩

/-- Where the printed precondition holds of the token array `x`, every token lies in `[0, 32000)`. -/
theorem range_of_pre {F : FTy → Type} [FloatOps F] (x : IVec S256x2048 32)
    (h : Cert.Pre_any_inputs.fn (F := F) x = fun _ => 1#1) (i : S256x2048.Idx) :
    0 ≤ (x i).toInt ∧ (x i).toInt < 32000 := by
  have h0 := congrFun h ValueIdx.ix0
  dsimp only [Cert.Pre_any_inputs.fn] at h0
  obtain ⟨h1, h2⟩ := IntOp.andi_eq_one.1 h0
  have g1 := Host.reduce_andi_all _ _ _ _ ValueIdx.ix0 h1 i
  have g2 := Host.reduce_andi_all _ _ _ _ ValueIdx.ix0 h2 i
  have g1' : IntOp.cmpi .sge (x i) 0#32 = 1#1 := g1
  have g2' : IntOp.cmpi .slt (x i) 32000#32 = 1#1 := g2
  have k1 := IntOp.cmpi_sge.1 g1'
  have k2 := IntOp.cmpi_slt.1 g2'
  have z0 : (0#32 : BitVec 32).toInt = 0 := by decide
  have z1 : (32000#32 : BitVec 32).toInt = 32000 := by decide
  rw [z0] at k1
  rw [z1] at k2
  exact ⟨k1, k2⟩

end Cert.Pre_any_inputs.Range

end
-- ==== Proof.LibPointScatter.lean ====
/-
  A POINT scatter-add, as `x.at[rows, cols].add(u)` lowers for a rank-2 operand `[N, C]`: the scatter indices are
  an array `[B, S, 2]` whose last axis holds the pair (row, column), the updates an array `[B, S]`, one number per
  pair; both operand axes are inserted window axes, so every update lands on one element or on none.

  At the ideal values, read at `(n, c)`, the result is the operand's entry plus the sum of the updates `(b, s)` whose
  pair, read signed and not clamped, is exactly `(n, c)`; a pair that points outside the operand adds nothing anywhere.
-/
import Idealize.ShloMosaic.Lib.ValueIdx
import Idealize.ShloMosaic.PureOps.Ideal.Laws

noncomputable section

open scoped BigOperators

namespace Idealize.ShloMosaic.ValueIdx

open Idealize.ShloMosaic

/-- The dimension numbers of a point scatter: operand `[N, C]`, scatter indices `[B, S, 2]`, updates `[B, S]`. -/
abbrev pointScatterDims (N C B S : ℕ)
    (wf : ScatterDims.WF ⟨2, ![N, C]⟩ ⟨3, ![B, S, 2]⟩ ⟨2, ![B, S]⟩ [] [0, 1] [0, 1] 2) :
    ScatterDims ⟨2, ![N, C]⟩ ⟨3, ![B, S, 2]⟩ ⟨2, ![B, S]⟩ where
  updateWindowDims := []
  insertedWindowDims := [0, 1]
  scatterDimsToOperandDims := [0, 1]
  indexVectorDim := 2
  wf := wf

section
variable {N C B S w : ℕ} (wf : ScatterDims.WF ⟨2, ![N, C]⟩ ⟨3, ![B, S, 2]⟩ ⟨2, ![B, S]⟩ [] [0, 1] [0, 1] 2)
  (idx : IVec ⟨3, ![B, S, 2]⟩ w) (b : Fin B) (s : Fin S)

/-- The row the update at `(b, s)` starts at is the first component of its pair. -/
theorem pointScatter_start0 :
    (pointScatterDims N C B S wf).start (ix2 b s) idx (0 : Fin 2) = (idx (ix3 b s (0 : Fin 2))).toInt := by
  unfold ScatterDims.start
  rw [dif_pos (show (0 : Fin 2) ∈ (pointScatterDims N C B S wf).scatterDimsToOperandDims from List.mem_cons_self)]
  have hsi : (pointScatterDims N C B S wf).siIdx (ix2 b s) ⟨List.idxOf (0 : Fin 2) (pointScatterDims N C B S wf).scatterDimsToOperandDims,
      List.idxOf_lt_length_iff.2 List.mem_cons_self⟩ = ix3 b s (0 : Fin 2) := by
    funext a; refine Fin.ext ?_
    match a with
    | ⟨0, _⟩ => rfl
    | ⟨1, _⟩ => rfl
    | ⟨2, _⟩ => rfl
  rw [hsi]

/-- The column it starts at is the second component. -/
theorem pointScatter_start1 :
    (pointScatterDims N C B S wf).start (ix2 b s) idx (1 : Fin 2) = (idx (ix3 b s (1 : Fin 2))).toInt := by
  have hmem : (1 : Fin 2) ∈ (pointScatterDims N C B S wf).scatterDimsToOperandDims :=
    List.mem_cons_of_mem _ List.mem_cons_self
  unfold ScatterDims.start
  rw [dif_pos hmem]
  have hsi : (pointScatterDims N C B S wf).siIdx (ix2 b s) ⟨List.idxOf (1 : Fin 2) (pointScatterDims N C B S wf).scatterDimsToOperandDims,
      List.idxOf_lt_length_iff.2 hmem⟩ = ix3 b s (1 : Fin 2) := by
    funext a; refine Fin.ext ?_
    match a with
    | ⟨0, _⟩ => rfl
    | ⟨1, _⟩ => rfl
    | ⟨2, _⟩ => rfl
  rw [hsi]

/-- No operand axis is a window axis: the window coordinate is `0` on both. -/
theorem pointScatter_window (a : Fin 2) : (pointScatterDims N C B S wf).window (ix2 b s) a = 0 := by
  unfold ScatterDims.window
  rw [dif_neg (show a ∉ (pointScatterDims N C B S wf).sKept from by
    have hk : (pointScatterDims N C B S wf).sKept = [] := rfl
    rw [hk]; exact List.not_mem_nil)]

/-- Where the update at `(b, s)` lands: on `(n, c)` exactly when its pair, read signed, is `(n, c)`. -/
theorem pointScatter_resultIdx (n : Fin N) (c : Fin C) :
    (pointScatterDims N C B S wf).resultIdx? (ix2 b s) idx = some (ix2 n c)
      ↔ (idx (ix3 b s (0 : Fin 2))).toInt = (n.val : ℤ) ∧ (idx (ix3 b s (1 : Fin 2))).toInt = (c.val : ℤ) := by
  have hs0 := pointScatter_start0 wf idx b s
  have hs1 := pointScatter_start1 wf idx b s
  have hw0 := pointScatter_window wf b s (0 : Fin 2)
  have hw1 := pointScatter_window wf b s (1 : Fin 2)
  constructor
  · intro h
    unfold ScatterDims.resultIdx? at h
    split at h
    · rename_i hb
      have h' := Option.some.inj h
      have h0 : ((pointScatterDims N C B S wf).start (ix2 b s) idx (0 : Fin 2)
          + ((pointScatterDims N C B S wf).window (ix2 b s) (0 : Fin 2) : ℤ)).toNat = n.val :=
        congrArg (fun f : (⟨2, ![N, C]⟩ : Shape).Idx => (f 0).val) h'
      have h1 : ((pointScatterDims N C B S wf).start (ix2 b s) idx (1 : Fin 2)
          + ((pointScatterDims N C B S wf).window (ix2 b s) (1 : Fin 2) : ℤ)).toNat = c.val :=
        congrArg (fun f : (⟨2, ![N, C]⟩ : Shape).Idx => (f 1).val) h'
      have hb0 := (hb 0).1
      have hb1 := (hb 1).1
      rw [hs0, hw0] at h0 hb0
      rw [hs1, hw1] at h1 hb1
      exact ⟨by omega, by omega⟩
    · exact absurd h (by simp)
  · rintro ⟨hrow, hcol⟩
    unfold ScatterDims.resultIdx?
    have hb : ∀ a : Fin 2, 0 ≤ (pointScatterDims N C B S wf).start (ix2 b s) idx a + ((pointScatterDims N C B S wf).window (ix2 b s) a : ℤ)
        ∧ (pointScatterDims N C B S wf).start (ix2 b s) idx a + ((pointScatterDims N C B S wf).window (ix2 b s) a : ℤ)
            < ((⟨2, ![N, C]⟩ : Shape).size a : ℤ) := by
      intro a
      match a with
      | ⟨0, _⟩ =>
        show 0 ≤ (pointScatterDims N C B S wf).start (ix2 b s) idx (0 : Fin 2) + ((pointScatterDims N C B S wf).window (ix2 b s) (0 : Fin 2) : ℤ)
          ∧ (pointScatterDims N C B S wf).start (ix2 b s) idx (0 : Fin 2) + ((pointScatterDims N C B S wf).window (ix2 b s) (0 : Fin 2) : ℤ) < (N : ℤ)
        rw [hs0, hw0, hrow]
        have := n.isLt
        omega
      | ⟨1, _⟩ =>
        show 0 ≤ (pointScatterDims N C B S wf).start (ix2 b s) idx (1 : Fin 2) + ((pointScatterDims N C B S wf).window (ix2 b s) (1 : Fin 2) : ℤ)
          ∧ (pointScatterDims N C B S wf).start (ix2 b s) idx (1 : Fin 2) + ((pointScatterDims N C B S wf).window (ix2 b s) (1 : Fin 2) : ℤ) < (C : ℤ)
        rw [hs1, hw1, hcol]
        have := c.isLt
        omega
    rw [dif_pos hb]
    congr 1
    funext a
    refine Fin.ext ?_
    match a with
    | ⟨0, _⟩ =>
      show ((pointScatterDims N C B S wf).start (ix2 b s) idx (0 : Fin 2) + ((pointScatterDims N C B S wf).window (ix2 b s) (0 : Fin 2) : ℤ)).toNat = n.val
      rw [hs0, hw0, hrow]
      omega
    | ⟨1, _⟩ =>
      show ((pointScatterDims N C B S wf).start (ix2 b s) idx (1 : Fin 2) + ((pointScatterDims N C B S wf).window (ix2 b s) (1 : Fin 2) : ℤ)).toNat = c.val
      rw [hs1, hw1, hcol]
      omega

end

/-- THE POINT SCATTER-ADD READ AT `(n, c)`, at the ideal values: the operand's entry plus the sum of the updates whose
    index pair is `(n, c)`. -/
theorem pointScatterAdd_apply {N C B S w : ℕ}
    (wf : ScatterDims.WF ⟨2, ![N, C]⟩ ⟨3, ![B, S, 2]⟩ ⟨2, ![B, S]⟩ [] [0, 1] [0, 1] 2)
    (x : FVec Ideal ⟨2, ![N, C]⟩ .f32) (idx : IVec ⟨3, ![B, S, 2]⟩ w) (upd : FVec Ideal ⟨2, ![B, S]⟩ .f32)
    (n : Fin N) (c : Fin C) :
    Host.scatterAdd (F := Ideal) (pointScatterDims N C B S wf) x idx upd (ix2 n c)
      = x (ix2 n c) + ∑ b : Fin B, ∑ s : Fin S,
          if (idx (ix3 b s (0 : Fin 2))).toInt = (n.val : ℤ) ∧ (idx (ix3 b s (1 : Fin 2))).toInt = (c.val : ℤ)
          then upd (ix2 b s) else 0 := by
  show Ideal.hostScatterAdd (pointScatterDims N C B S wf) x idx upd (ix2 n c) = _
  unfold Ideal.hostScatterAdd
  congr 1
  rw [Finset.sum_filter, sum_idx2]
  refine Finset.sum_congr rfl fun b _ => Finset.sum_congr rfl fun s _ => ?_
  by_cases h : (idx (ix3 b s (0 : Fin 2))).toInt = (n.val : ℤ) ∧ (idx (ix3 b s (1 : Fin 2))).toInt = (c.val : ℤ)
  · rw [if_pos ((pointScatter_resultIdx wf idx b s n c).mpr h), if_pos h]
  · rw [if_neg (fun h' => h ((pointScatter_resultIdx wf idx b s n c).mp h')), if_neg h]

end Idealize.ShloMosaic.ValueIdx

end
-- ==== Proof.RefValue.lean ====
/-
  The reference's result is the histogram.

  The reference scatters a `1` to position (row, column) = (`b`, `x[b, s]`) of a zero array for every `(b, s)`, then
  divides by 2048. Its index array pairs the row number `b` with the token, each passed through jax's index
  normalization `select (i < 0) (i + extent) i`, which leaves a non-negative index alone. With every token in
  `[0, 32000)` the update at `(b, s)` lands on `(n, c)` exactly when `b = n` and `x[b, s] = c`, so entry `(n, c)` of the
  scattered array counts the positions of row `n` that hold token `c`; and dividing by 2048 is multiplying by 1/2048.
-/
import proofs.«422579_j30631706755532_1_alg».proof.Proof.Gen.ReferenceIdeal.Read
import proofs.«422579_j30631706755532_1_alg».proof.Proof.LibPointScatter
import proofs.«422579_j30631706755532_1_alg».proof.Proof.HistSpec

noncomputable section

open scoped BigOperators

namespace Cert.ReferenceIdeal.RefValue

open Cert.ReferenceIdeal Cert.ReferenceIdeal.Gen Cert.ReferenceIdeal.Read
open Idealize.ShloMosaic Idealize.ShloMosaic.ValueIdx Cert.Hist

/-- The printed scatter's dimension numbers are the point scatter's. -/
theorem dims_eq : scatter_S256x32000_S256x2048x2_S256x2048_n_01_01_2
    = pointScatterDims 256 32000 256 2048 scatter_S256x32000_S256x2048x2_S256x2048_n_01_01_2_wf := rfl

/-- The first component of the index pair at `(b, s)` is the row number `b`. -/
theorem idx_row (x0 : IVec S256x2048 32) (b : Fin 256) (s : Fin 2048) :
    (val_main_v16 (F := Ideal) x0 (ix3 b s (0 : Fin 2))).toInt = (b.val : ℤ) := by
  have hcat : val_main_v16 (F := Ideal) x0 (ix3 b s (0 : Fin 2)) = val_main_v14 (F := Ideal) (ix3 b s (0 : Fin 1)) := by
    unfold val_main_v16
    exact concatenate_pair_apply_left (t := S256x2048x2) (s₁ := S256x2048x1) (s₂ := S256x2048x1) (2 : Fin 3)
      (val_main_v14 (F := Ideal)) (val_main_v15 (F := Ideal) x0) concatenates_S256x2048x1_S256x2048x1_S256x2048x2_d2
      (ix3 b s (0 : Fin 2)) rfl (ix3 b s (0 : Fin 1)) (fun a => match a with
        | ⟨0, _⟩ => rfl
        | ⟨1, _⟩ => rfl
        | ⟨2, _⟩ => rfl)
  rw [hcat, val_main_v14_apply, val_main_v13_apply, val_main_v7_apply, val_main_v4_apply, val_main_v6_apply,
    val_main_v1_apply, val_main_v0_apply, val_main_v3_apply, val_main_c_apply]
  have hb : (BitVec.ofNat 32 ((idx_main_v1 (idx_main_v13 (idx_main_v14 (ix3 b s (0 : Fin 1))))) 0).val)
      = BitVec.ofNat 32 b.val := rfl
  rw [hb]
  have hnn : 0 ≤ (BitVec.ofNat 32 b.val).toInt := by
    rw [toInt_ofNat_small b.val (by have := b.isLt; omega)]; omega
  rw [select_slt_zero_of_nonneg _ _ hnn]
  exact toInt_ofNat_small b.val (by have := b.isLt; omega)

/-- The second component is the token, when it is not negative. -/
theorem idx_col (x0 : IVec S256x2048 32) (b : Fin 256) (s : Fin 2048) (hnn : 0 ≤ (x0 (ix2 b s)).toInt) :
    val_main_v16 (F := Ideal) x0 (ix3 b s (1 : Fin 2)) = x0 (ix2 b s) := by
  have hcat : val_main_v16 (F := Ideal) x0 (ix3 b s (1 : Fin 2)) = val_main_v15 (F := Ideal) x0 (ix3 b s (0 : Fin 1)) := by
    unfold val_main_v16
    exact concatenate_pair_apply_right (t := S256x2048x2) (s₁ := S256x2048x1) (s₂ := S256x2048x1) (2 : Fin 3)
      (val_main_v14 (F := Ideal)) (val_main_v15 (F := Ideal) x0) concatenates_S256x2048x1_S256x2048x1_S256x2048x2_d2
      (ix3 b s (1 : Fin 2)) rfl rfl (ix3 b s (0 : Fin 1)) (fun a => match a with
        | ⟨0, _⟩ => fun _ => rfl
        | ⟨1, _⟩ => fun _ => rfl
        | ⟨2, _⟩ => fun h => absurd rfl h) rfl
  rw [hcat, val_main_v15_apply, val_main_v12_apply, val_main_v9_apply, val_main_v8_apply, val_main_c_1_apply]
  have hi : idx_main_v15 (ix3 b s (0 : Fin 1)) = ix2 b s := by
    funext a
    match a with
    | ⟨0, _⟩ => rfl
    | ⟨1, _⟩ => rfl
  rw [hi]
  exact select_slt_zero_of_nonneg _ _ hnn

/-- THE REFERENCE IS THE HISTOGRAM, for tokens in `[0, 32000)`. -/
theorem ref_eq_hist (x0 : IVec S256x2048 32) (hx : ∀ i, 0 ≤ (x0 i).toInt ∧ (x0 i).toInt < 32000) :
    val_main_v20 (F := Ideal) x0 = hist x0 := by
  funext i
  obtain ⟨n, c, rfl⟩ : ∃ (n : Fin 256) (c : Fin 32000), i = ix2 n c := ⟨i 0, i 1, eq_ix2 i⟩
  rw [val_main_v20_apply, val_main_v19_apply, val_main_cst_4_apply]
  have hsc : val_main_v18 (F := Ideal) x0 (ix2 n c)
      = ∑ s : Fin 2048, if (x0 (ix2 n s)).toNat = c.val then (1 : EReal) else 0 := by
    unfold val_main_v18
    rw [dims_eq, pointScatterAdd_apply, val_main_v2_apply, val_main_cst_apply]
    show Ideal.ofBits .f32 0x00000000#32 + _ = _
    rw [Ideal.ofBits_zero_f32, zero_add]
    rw [Finset.sum_eq_single n]
    · refine Finset.sum_congr rfl fun s _ => ?_
      have hnn := (hx (ix2 n s)).1
      rw [idx_row, idx_col x0 n s hnn, toInt_eq_toNat_of_nonneg _ hnn, val_main_v17_apply, val_main_cst_3_apply]
      show (if _ then Ideal.ofBits .f32 0x3F800000#32 else 0) = _
      rw [ofBits_one]
      by_cases h : (x0 (ix2 n s)).toNat = c.val
      · rw [if_pos ⟨rfl, by exact_mod_cast h⟩, if_pos h]
      · rw [if_neg (fun h' => h (by exact_mod_cast h'.2)), if_neg h]
    · intro b _ hbn
      refine Finset.sum_eq_zero fun s _ => ?_
      rw [idx_row, if_neg (fun h' => hbn (Fin.ext (by exact_mod_cast h'.1)))]
    · intro h; exact absurd (Finset.mem_univ n) h
  rw [hsc]
  show Ideal.div _ (Ideal.ofBits .f32 0x45000000#32) = _
  rw [ofBits_2048, Ideal.div_coe (by norm_num : (2048 : ℝ) ≠ 0)]
  rfl

end Cert.ReferenceIdeal.RefValue

end
-- ==== Proof.KernelPayload.lean ====
/-
  The kernel body's stored value, entry by entry.

  From its block `d` of 16 rows of tokens the body builds two one-hot arrays with the sequence axis last —
  `hi[b, h, s] = 1` where the high part `d[b, s] >> 8` is `h`, `lo[b, l, s] = 1` where the low byte `d[b, s] & 255` is `l` —
  and contracts them over `s` on the matrix unit, batched over the rows, into a zero accumulator: entry `(b, h, l)` is
  the number of positions where both tests hold. For non-negative tokens that is the number of positions of row `b`
  holding the token `256·h + l`. The result is scaled by the exact power of two `1/2048`.
-/
import proofs.«422579_j30631706755532_1_alg».proof.Proof.Gen.KernelIdeal.Skeleton
import proofs.«422579_j30631706755532_1_alg».proof.Proof.HistSpec
import Idealize.ShloMosaic.Lib.Pipeline.Value
import Idealize.ShloMosaic.Lib.ValueIdx
import Idealize.ShloMosaic.PureOps.Ideal.Laws

noncomputable section

open scoped BigOperators

namespace Cert.KernelIdeal.Payload

open Cert.KernelIdeal Cert.KernelIdeal.Gen
open Idealize.ShloMosaic Idealize.ShloMosaic.ValueIdx Cert.Hist

/-! ## The two one-hot factors -/

/-- `hi[b, h, s]`: the tokens' high parts compared with the high-part numbers `0 … 127`. -/
def hiHot (d : IVec S16x2048 32) : FVec Ideal S16x128x2048 .bf16 :=
  truncf .bf16 (sitofp .f32 (extui 32 (cmpi .eq
    (broadcastTo S16x128x2048 (shapeCast S16x1x2048 (shrsi d (broadcast S16x2048 8#32)) shapeCasts_S16x2048_S16x1x2048)
      broadcasts_S16x1x2048_S16x128x2048)
    (broadcastTo S16x128x2048 (iota .tc S1x128x1 32 [1] iota_S1x128x1_d1_w32) broadcasts_S1x128x1_S16x128x2048))
    natLt_1_32)) bitsLt_bf16_f32

/-- `lo[b, l, s]`: the tokens' low bytes compared with the byte values `0 … 255`. -/
def loHot (d : IVec S16x2048 32) : FVec Ideal S16x256x2048 .bf16 :=
  truncf .bf16 (sitofp .f32 (extui 32 (cmpi .eq
    (broadcastTo S16x256x2048 (shapeCast S16x1x2048 (andi d (broadcast S16x2048 255#32)) shapeCasts_S16x2048_S16x1x2048)
      broadcasts_S16x1x2048_S16x256x2048)
    (broadcastTo S16x256x2048 (iota .tc S1x256x1 32 [1] iota_S1x256x1_d1_w32) broadcasts_S1x256x1_S16x256x2048))
    natLt_1_32)) bitsLt_bf16_f32

/-- The stored value is the scaled contraction of the two factors. -/
theorem pay_eq (d : IVec S16x2048 32) :
    k0_pay1 (F := Ideal) d
      = mulf (matmul dot_S16x128x2048_S16x256x2048_S16x128x256_2_2_1_1_0_0 none (hiHot d) (loHot d) (constant S16x128x256 .f32 0x00000000#32))
          (broadcast S16x128x256 (Scalar.ofBits .f32 0x3A000000#32)) := rfl

theorem cmpi_eq_apply {s : Shape} (a b : IVec s 32) (i : s.Idx) : cmpi .eq a b i = IntOp.cmpi .eq (a i) (b i) := rfl

/-- A row of tokens viewed `[16, 1, 2048]` and repeated along the middle axis reads the token at `(b, s)`. -/
theorem spread_rows_apply {n : ℕ} (v : IVec S16x2048 32) (hb : S16x1x2048.Broadcasts ⟨3, ![16, n, 2048]⟩) (hn : n ≠ 1)
    (bb : Fin 16) (k : Fin n) (s : Fin 2048) :
    broadcastTo ⟨3, ![16, n, 2048]⟩ (shapeCast S16x1x2048 v shapeCasts_S16x2048_S16x1x2048) hb (ix3 bb k s) = v (ix2 bb s) := by
  rw [broadcastTo_apply _ hb (ix3 bb k s) (ix3 bb (0 : Fin 1) s) (fun a => match a with
    | ⟨0, _⟩ => by show bb.val = if (16 : ℕ) = 1 then 0 else bb.val; rw [if_neg (by decide)]
    | ⟨1, _⟩ => by show 0 = if (1 : ℕ) = 1 then 0 else k.val; rw [if_pos rfl]
    | ⟨2, _⟩ => by show s.val = if (2048 : ℕ) = 1 then 0 else s.val; rw [if_neg (by decide)])]
  exact shapeCast_apply _ shapeCasts_S16x2048_S16x1x2048 (ix3 bb (0 : Fin 1) s) (ix2 bb s) (by
    rw [Shape.rowMajor_val_two, Shape.rowMajor_val_three]
    show bb.val * 2048 + s.val = (bb.val * 1 + 0) * 2048 + s.val
    omega)

theorem hiHot_apply (d : IVec S16x2048 32) (bb : Fin 16) (h : Fin 128) (s : Fin 2048) :
    hiHot d (ix3 bb h s)
      = if IntOp.shrsi .vector (d (ix2 bb s)) 8#32 = BitVec.ofNat 32 h.val then (1 : EReal) else 0 := by
  have e2 : broadcastTo S16x128x2048 (iota .tc S1x128x1 32 [1] iota_S1x128x1_d1_w32) broadcasts_S1x128x1_S16x128x2048 (ix3 bb h s)
      = BitVec.ofNat 32 h.val := by
    rw [broadcastTo_apply _ broadcasts_S1x128x1_S16x128x2048 (ix3 bb h s) (ix3 (0 : Fin 1) h (0 : Fin 1)) (fun a => match a with
      | ⟨0, _⟩ => by show 0 = if (1 : ℕ) = 1 then 0 else bb.val; rw [if_pos rfl]
      | ⟨1, _⟩ => by show h.val = if (128 : ℕ) = 1 then 0 else h.val; rw [if_neg (by decide)]
      | ⟨2, _⟩ => by show 0 = if (1 : ℕ) = 1 then 0 else s.val; rw [if_pos rfl])]
    rw [iota_single_apply]
  unfold hiHot
  rw [truncf_apply, sitofp_apply, extui_apply, cmpi_eq_apply, e2,
    spread_rows_apply _ broadcasts_S16x1x2048_S16x128x2048 (by decide), onehot_word]
  rfl

theorem loHot_apply (d : IVec S16x2048 32) (bb : Fin 16) (l : Fin 256) (s : Fin 2048) :
    loHot d (ix3 bb l s)
      = if IntOp.andi (d (ix2 bb s)) 255#32 = BitVec.ofNat 32 l.val then (1 : EReal) else 0 := by
  have e2 : broadcastTo S16x256x2048 (iota .tc S1x256x1 32 [1] iota_S1x256x1_d1_w32) broadcasts_S1x256x1_S16x256x2048 (ix3 bb l s)
      = BitVec.ofNat 32 l.val := by
    rw [broadcastTo_apply _ broadcasts_S1x256x1_S16x256x2048 (ix3 bb l s) (ix3 (0 : Fin 1) l (0 : Fin 1)) (fun a => match a with
      | ⟨0, _⟩ => by show 0 = if (1 : ℕ) = 1 then 0 else bb.val; rw [if_pos rfl]
      | ⟨1, _⟩ => by show l.val = if (256 : ℕ) = 1 then 0 else l.val; rw [if_neg (by decide)]
      | ⟨2, _⟩ => by show 0 = if (1 : ℕ) = 1 then 0 else s.val; rw [if_pos rfl])]
    rw [iota_single_apply]
  unfold loHot
  rw [truncf_apply, sitofp_apply, extui_apply, cmpi_eq_apply, e2,
    spread_rows_apply _ broadcasts_S16x1x2048_S16x256x2048 (by decide), onehot_word]
  rfl

/-! ## The contraction over the sequence axis -/

theorem lhs_axis0 (j : S16x128x256.Idx) (k : dot_S16x128x2048_S16x256x2048_S16x128x256_2_2_1_1_0_0.contr.Idx) :
    (dot_S16x128x2048_S16x256x2048_S16x128x256_2_2_1_1_0_0.lhsIdx j k (0 : Fin S16x128x2048.rank)).val = (j 0).val := by
  unfold DotDims.lhsIdx
  rw [dif_pos (show (0 : Fin S16x128x2048.rank) ∈ dot_S16x128x2048_S16x256x2048_S16x128x256_2_2_1_1_0_0.lhsBatch from List.mem_cons_self)]
  rfl

theorem lhs_axis1 (j : S16x128x256.Idx) (k : dot_S16x128x2048_S16x256x2048_S16x128x256_2_2_1_1_0_0.contr.Idx) :
    (dot_S16x128x2048_S16x256x2048_S16x128x256_2_2_1_1_0_0.lhsIdx j k (1 : Fin S16x128x2048.rank)).val = (j 1).val := by
  unfold DotDims.lhsIdx
  rw [dif_neg (show (1 : Fin S16x128x2048.rank) ∉ dot_S16x128x2048_S16x256x2048_S16x128x256_2_2_1_1_0_0.lhsBatch by decide),
    dif_pos (show (1 : Fin S16x128x2048.rank) ∈ dot_S16x128x2048_S16x256x2048_S16x128x256_2_2_1_1_0_0.lhsNonContracting from List.mem_cons_self)]
  rfl

theorem rhs_axis0 (j : S16x128x256.Idx) (k : dot_S16x128x2048_S16x256x2048_S16x128x256_2_2_1_1_0_0.contr.Idx) :
    (dot_S16x128x2048_S16x256x2048_S16x128x256_2_2_1_1_0_0.rhsIdx j k (0 : Fin S16x256x2048.rank)).val = (j 0).val := by
  unfold DotDims.rhsIdx
  rw [dif_pos (show (0 : Fin S16x256x2048.rank) ∈ dot_S16x128x2048_S16x256x2048_S16x128x256_2_2_1_1_0_0.rhsBatch from List.mem_cons_self)]
  rfl

theorem rhs_axis1 (j : S16x128x256.Idx) (k : dot_S16x128x2048_S16x256x2048_S16x128x256_2_2_1_1_0_0.contr.Idx) :
    (dot_S16x128x2048_S16x256x2048_S16x128x256_2_2_1_1_0_0.rhsIdx j k (1 : Fin S16x256x2048.rank)).val = (j 2).val := by
  unfold DotDims.rhsIdx
  rw [dif_neg (show (1 : Fin S16x256x2048.rank) ∉ dot_S16x128x2048_S16x256x2048_S16x128x256_2_2_1_1_0_0.rhsBatch by decide),
    dif_pos (show (1 : Fin S16x256x2048.rank) ∈ dot_S16x128x2048_S16x256x2048_S16x128x256_2_2_1_1_0_0.rhsNonContracting from List.mem_cons_self)]
  rfl

/-- The batched contraction into a zero accumulator, at `(b, h, l)`: the sum over the positions `s` of the products of
    the left factor at `(b, h, s)` and the right factor at `(b, l, s)`. -/
theorem contract_apply (L : FVec Ideal S16x128x2048 .bf16) (R : FVec Ideal S16x256x2048 .bf16)
    (bb : Fin 16) (h : Fin 128) (l : Fin 256) :
    matmul dot_S16x128x2048_S16x256x2048_S16x128x256_2_2_1_1_0_0 none L R (constant S16x128x256 .f32 0x00000000#32) (ix3 bb h l)
      = ∑ s : Fin 2048, L (ix3 bb h s) * R (ix3 bb l s) := by
  refine (Ideal.matmul_constant_zero_apply dot_S16x128x2048_S16x256x2048_S16x128x256_2_2_1_1_0_0 none L R (ix3 bb h l)).trans ?_
  rw [← Equiv.sum_comp (contrEquiv1 dot_S16x128x2048_S16x256x2048_S16x128x256_2_2_1_1_0_0 2048 rfl rfl).symm]
  refine Finset.sum_congr rfl fun s _ => ?_
  have hl : dot_S16x128x2048_S16x256x2048_S16x128x256_2_2_1_1_0_0.lhsIdx (ix3 bb h l) ((contrEquiv1 dot_S16x128x2048_S16x256x2048_S16x128x256_2_2_1_1_0_0 2048 rfl rfl).symm s) = ix3 bb h s := by
    funext a; refine Fin.ext ?_
    match a with
    | ⟨0, _⟩ => exact lhs_axis0 _ _
    | ⟨1, _⟩ => exact lhs_axis1 _ _
    | ⟨2, _⟩ =>
      exact (dot_S16x128x2048_S16x256x2048_S16x128x256_2_2_1_1_0_0.lhsIdx_val_of_single (cl := (2 : Fin S16x128x2048.rank)) rfl _ _).trans
        (contrEquiv1_symm_val dot_S16x128x2048_S16x256x2048_S16x128x256_2_2_1_1_0_0 2048 rfl rfl s)
  have hr : dot_S16x128x2048_S16x256x2048_S16x128x256_2_2_1_1_0_0.rhsIdx (ix3 bb h l) ((contrEquiv1 dot_S16x128x2048_S16x256x2048_S16x128x256_2_2_1_1_0_0 2048 rfl rfl).symm s) = ix3 bb l s := by
    funext a; refine Fin.ext ?_
    match a with
    | ⟨0, _⟩ => exact rhs_axis0 _ _
    | ⟨1, _⟩ => exact rhs_axis1 _ _
    | ⟨2, _⟩ =>
      exact (dot_S16x128x2048_S16x256x2048_S16x128x256_2_2_1_1_0_0.rhsIdx_val_of_single (cr := (2 : Fin S16x256x2048.rank)) rfl _ _).trans
        (contrEquiv1_symm_val dot_S16x128x2048_S16x256x2048_S16x128x256_2_2_1_1_0_0 2048 rfl rfl s)
  rw [hl, hr]

/-! ## The stored value at an entry -/

set_option maxRecDepth 65536 in
/-- THE BODY'S VALUE AT `(b, h, l)`, for a block of non-negative tokens: the number of positions of row `b` that hold the
    token `256·h + l`, times `1/2048`. -/
theorem pay_apply (d : IVec S16x2048 32) (hd : ∀ i, 0 ≤ (d i).toInt) (bb : Fin 16) (h : Fin 128) (l : Fin 256) :
    k0_pay1 (F := Ideal) d (ix3 bb h l)
      = (∑ s : Fin 2048, if (d (ix2 bb s)).toNat = 256 * h.val + l.val then (1 : EReal) else 0)
          * ((1 / 2048 : ℝ) : EReal) := by
  rw [pay_eq, mulf_apply, broadcast_apply, contract_apply]
  show _ * Ideal.ofBits .f32 0x3A000000#32 = _
  rw [ofBits_inv2048]
  congr 1
  have hprod : ∀ s : Fin 2048, hiHot d (ix3 bb h s) * loHot d (ix3 bb l s)
      = (if IntOp.shrsi .vector (d (ix2 bb s)) 8#32 = BitVec.ofNat 32 h.val then (1 : EReal) else 0)
        * (if IntOp.andi (d (ix2 bb s)) 255#32 = BitVec.ofNat 32 l.val then (1 : EReal) else 0) :=
    fun s => by rw [hiHot_apply, loHot_apply]
  rw [Finset.sum_congr rfl fun s _ => hprod s, sum_indicator_mul]
  refine Finset.sum_congr rfl fun s _ => ?_
  have hw := split_word (d (ix2 bb s)) (hd _) h.val l.val h.isLt l.isLt
  by_cases hq : (d (ix2 bb s)).toNat = 256 * h.val + l.val
  · rw [if_pos (hw.mpr hq), if_pos hq]
  · rw [if_neg (fun h' => hq (hw.mp h')), if_neg hq]

end Cert.KernelIdeal.Payload

end
-- ==== Proof.KernelValue.lean ====
/-
  The kernel program's result is the histogram.

  The region writes the padded array `[256, 128, 256]`: grid point `t` takes the 16 rows `16·t … 16·t + 15` of the tokens
  and writes back the body's value for them, so entry `(r, h, l)` of the padded array is the number of positions of row
  `r` holding token `256·h + l`, times `1/2048` — the 16 blocks tile the array. After the region the host merges the two
  last axes row-major, `(r, h, l) ↦ (r, 256·h + l)`, and keeps the first 32000 columns: entry `(r, v)` of the result is
  the padded entry `(r, v / 256, v % 256)`, the count for the token `v`.
-/
import proofs.«422579_j30631706755532_1_alg».proof.Proof.Gen.KernelIdeal.Frame
import proofs.«422579_j30631706755532_1_alg».proof.Proof.KernelPayload
import Idealize.ShloMosaic.Lib.Pipeline.Value
import Idealize.ShloMosaic.Lib.StableHlo.Run

set_option maxRecDepth 16384

noncomputable section

open scoped BigOperators

namespace Cert.KernelIdeal.KValue

open Cert.KernelIdeal Cert.KernelIdeal.Gen Cert.KernelIdeal.Payload
open Idealize.ShloMosaic Idealize.ShloMosaic.TcCoe Idealize.ShloMosaic.ValueIdx Cert.Hist
open Idealize.SL Idealize.SL.Sem
open Idealize.ShloMosaic.Pipeline (Dat)

variable (m : (ℓ : Loc nD τ sig) → Buf (Elt Ideal) ℓ) (ρ : Dev nD → PrngReg)

/-- The token array on core `c`. -/
abbrev docs (c : Dev nD) : IVec S256x2048 32 := m ((c : Thread nD τ).loc main_arg0)

/-- The padded histogram: at `(r, h, l)` the number of positions of row `r` holding token `256·h + l`, times `1/2048`. -/
def padded (x : IVec S256x2048 32) : S256x128x256.Idx → EReal := fun y =>
  (∑ s : Fin 2048, if (x (ix2 (y 0) s)).toNat = 256 * (y 1).val + (y 2).val then (1 : EReal) else 0)
    * ((1 / 2048 : ℝ) : EReal)

/-- The body's value over a block of non-negative tokens, at any entry of the block. -/
theorem pay_at (d : IVec S16x2048 32) (hd : ∀ i, 0 ≤ (d i).toInt) (y : S16x128x256.Idx) :
    k0_pay1 (F := Ideal) d y
      = (∑ s : Fin 2048, if (d (ix2 (y 0) s)).toNat = 256 * (y 1).val + (y 2).val then (1 : EReal) else 0)
          * ((1 / 2048 : ℝ) : EReal) := by
  exact (congrArg (k0_pay1 (F := Ideal) d) (eq_ix3 y)).trans (pay_apply d hd (y 0) (y 1) (y 2))

theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps over the grid: point `t` takes block `t` of the rows, the whole of every other axis. -/
theorem idx_facts : ∀ t : Fin cfg0.N, win0_0.index t (0 : Fin 2) = t.val ∧ win0_0.index t (1 : Fin 2) = 0
    ∧ win0_1.index t (0 : Fin 3) = t.val ∧ win0_1.index t (1 : Fin 3) = 0 ∧ win0_1.index t (2 : Fin 3) = 0 :=
  (by decide +kernel : ∀ t : Fin grid0.N, _)

/-- WHAT POINT `t` WRITES BACK is block `t` of the padded histogram of the tokens. -/
theorem flushed_eq (c : Dev nD) (hnn : ∀ i, 0 ≤ (docs m c i).toInt) (t : Fin cfg0.N) :
    (dats m 0 c).flushed 1 t = ((cfg0.win 1).blk t).view.read (Elt Ideal) (padded (docs m c)) := by
  show (cfg0.win 1).cut (grid0.coords t) ((dats m 0 c).after 1 t) = _
  rw [after0_1]
  unfold out0_1
  rw [View.canon_unit_zero hz3]
  simp only [View.ld_unit_zero (S := S16x2048) hz2]
  obtain ⟨e0, e1, e2, e3, e4⟩ := idx_facts t
  funext y
  show k0_pay1 (F := Ideal) (iblk m c 0 t) y = padded (docs m c) (((cfg0.win 1).blk t).view.emb y)
  refine (pay_at (iblk m c 0 t) (fun z => hnn (((cfg0.win 0).blk t).view.emb z)) y).trans ?_
  unfold padded
  congr 1
  refine Finset.sum_congr rfl fun s _ => ?_
  have hrow : iblk m c 0 t (ix2 (y 0) s) = docs m c (ix2 ((((cfg0.win 1).blk t).view.emb y) 0) s) := by
    show docs m c (((cfg0.win 0).blk t).view.emb (ix2 (y 0) s)) = docs m c (ix2 ((((cfg0.win 1).blk t).view.emb y) 0) s)
    congr 1
    funext a; apply Fin.ext
    match a with
    | ⟨0, _⟩ =>
      show win0_0.index t (0 : Fin 2) * 16 + 1 * (y 0).val = win0_1.index t (0 : Fin 3) * 16 + 1 * (y 0).val
      omega
    | ⟨1, _⟩ =>
      show win0_0.index t (1 : Fin 2) * 2048 + 1 * s.val = s.val
      omega
  have h1 : ((((cfg0.win 1).blk t).view.emb y) 1).val = (y 1).val := by
    show win0_1.index t (1 : Fin 3) * 128 + 1 * (y 1).val = (y 1).val
    omega
  have h2 : ((((cfg0.win 1).blk t).view.emb y) 2).val = (y 2).val := by
    show win0_1.index t (2 : Fin 3) * 256 + 1 * (y 2).val = (y 2).val
    omega
  rw [hrow, h1, h2]

/-- An index of the padded array is in point `t`'s block iff each coordinate is in the block's range on its axis. -/
theorem mem_blk (t : Fin cfg0.N) (i : S256x128x256.Idx) :
    i ∈ ((cfg0.win 1).blk t).view.set ↔ ∀ a : Fin 3, win0_1.index t a * S16x128x256.size a ≤ (i a).val
      ∧ (i a).val < win0_1.index t a * S16x128x256.size a + S16x128x256.size a := by
  show i ∈ ((View.whole main_v0).slice (win0_1.rect t)).set ↔ _
  rw [View.set_slice_whole, Rect.mem_set_unit]
  exact Iff.rfl

/-- The 16 blocks tile the padded array: row `r` is in the block of point `r / 16`. -/
theorem cover (i : S256x128x256.Idx) :
    ∃ t : Fin cfg0.N, (cfg0.win 1).flush t = true ∧ i ∈ ((cfg0.win 1).blk t).view.set := by
  have hi0 : (i 0).val < 256 := (i 0).isLt
  have hi1 : (i 1).val < 128 := (i 1).isLt
  have hi2 : (i 2).val < 256 := (i 2).isLt
  have hN : (i 0).val / 16 < cfg0.N := by
    show (i 0).val / 16 < grid0.N
    rw [N_0]; omega
  obtain ⟨e0, e1, e2, e3, e4⟩ := idx_facts ⟨(i 0).val / 16, hN⟩
  refine ⟨⟨(i 0).val / 16, hN⟩, flush0_1 _, ?_⟩
  rw [mem_blk]
  intro a
  match a with
  | ⟨0, _⟩ =>
    show win0_1.index ⟨(i 0).val / 16, hN⟩ (0 : Fin 3) * 16 ≤ (i 0).val
      ∧ (i 0).val < win0_1.index ⟨(i 0).val / 16, hN⟩ (0 : Fin 3) * 16 + 16
    rw [e2]
    show (i 0).val / 16 * 16 ≤ (i 0).val ∧ (i 0).val < (i 0).val / 16 * 16 + 16
    omega
  | ⟨1, _⟩ =>
    show win0_1.index ⟨(i 0).val / 16, hN⟩ (1 : Fin 3) * 128 ≤ (i 1).val
      ∧ (i 1).val < win0_1.index ⟨(i 0).val / 16, hN⟩ (1 : Fin 3) * 128 + 128
    omega
  | ⟨2, _⟩ =>
    show win0_1.index ⟨(i 0).val / 16, hN⟩ (2 : Fin 3) * 256 ≤ (i 2).val
      ∧ (i 2).val < win0_1.index ⟨(i 0).val / 16, hN⟩ (2 : Fin 3) * 256 + 256
    omega

/-- THE PADDED ARRAY after the region is the padded histogram of the tokens. -/
theorem final (c : Dev nD) (hnn : ∀ i, 0 ≤ (docs m c i).toInt) :
    (dats m 0 c).arrAt 1 cfg0.N = padded (docs m c) :=
  (dats m 0 c).arrAt_eq_of_cover 1 (padded (docs m c)) (fun t _ => flushed_eq m c hnn t) cover

/-- The result buffer bypasses the region: it is unscoped and is no window's array. -/
theorem v2_rest : main_v2 ∈ Pipeline.restRefs sig (cfgs 0).spec :=
  Pipeline.mem_restRefs_of main_v2 rfl (by decide)

/-- THE RESULT after the two host operations that follow the region: the histogram. -/
theorem tail_eq (c : Dev nD) (hnn : ∀ i, 0 ≤ (docs m c i).toInt) :
    Pipeline.afterTail₀ cfgs (dats m) 0 (V0 m) [hostOps1] c main_v2 = hist (docs m c) := by
  unfold Pipeline.afterTail₀
  show StableHlo.after hostOps1 _ (Proc.devRef .tc main_v2) = _
  after_results
  funext i
  obtain ⟨r, v, rfl⟩ : ∃ (r : Fin 256) (v : Fin 32000), i = ix2 r v := ⟨i 0, i 1, eq_ix2 i⟩
  have hv : v.val < 32768 := by have := v.isLt; omega
  have hq : v.val / 256 < 128 := by have := v.isLt; omega
  have hm : v.val % 256 < 256 := Nat.mod_lt _ (by decide)
  refine (extractStridedSlice_apply (s := S256x32768) (t := S256x32000) ![0, 0] _ slices_S256x32768_S256x32000_0_0
    (ix2 r v) (ix2 r (⟨v.val, hv⟩ : Fin 32768)) (fun a => match a with
      | ⟨0, _⟩ => by show r.val = 0 + r.val; omega
      | ⟨1, _⟩ => by show v.val = 0 + v.val; omega)).trans ?_
  refine (shapeCast_apply (s := S256x128x256) (t := S256x32768) _ shapeCasts_S256x128x256_S256x32768
    (ix2 r (⟨v.val, hv⟩ : Fin 32768)) (ix3 r (⟨v.val / 256, hq⟩ : Fin 128) (⟨v.val % 256, hm⟩ : Fin 256)) (by
      rw [Shape.rowMajor_val_two, Shape.rowMajor_val_three]
      show (r.val * 128 + v.val / 256) * 256 + v.val % 256 = r.val * 32768 + v.val
      omega)).trans ?_
  rw [Pipeline.withArrays_arr spec0 launch0.win.arr_inj c _ _ 1, final m c hnn]
  unfold padded hist
  congr 1
  refine Finset.sum_congr rfl fun s _ => ?_
  have hsplit : 256 * (v.val / 256) + v.val % 256 = v.val := Nat.div_add_mod v.val 256
  show (if (docs m c (ix2 r s)).toNat = 256 * (v.val / 256) + v.val % 256 then (1 : EReal) else 0)
    = if (docs m c (ix2 r s)).toNat = v.val then (1 : EReal) else 0
  rw [hsplit]

/-- THE KERNEL PROGRAM'S RUN, read: it ends with the result buffer at the histogram of the tokens, the tokens
    unchanged — for tokens that are not negative. -/
theorem run (hnn : ∀ c i, 0 ≤ (docs m c i).toInt) :
    θ_run defs (onTc (τ := τ) (main (F := Ideal))) ⟨m, fun _ => 0, ρ⟩ fun r => ∀ c : Dev nD,
      r.2.mem ((c : Thread nD τ).loc main_v2) = hist (docs m c)
      ∧ r.2.mem ((c : Thread nD τ).loc main_arg0) = m ((c : Thread nD τ).loc main_arg0) :=
  (θ_run defs _ _).mono (fun r h c => ⟨((h c).2 main_v2 v2_rest).trans (tail_eq m c (hnn c)),
      ((h c).1 0).trans (((dats m 0 c).arrAt_in 0 rfl _).trans ((A_eq m c 0).trans (V_main_arg0 m c)))⟩)
    (run_main m ρ)

end Cert.KernelIdeal.KValue

end
-- ==== Proof.lean ====
/-
  A normalized bag-of-words histogram, two ways. The input is an array of 256 rows of 2048 tokens; the result is, for
  every row `b` and every token `v` of the vocabulary `0 … 31999`, the share of the row's positions that hold `v`:
  `hist[b, v] = #{s : docs[b, s] = v} / 2048`.

  The kernel factors a token as `256·h + l` with `h = docs >> 8` and `l = docs & 255`, builds a one-hot array for each
  factor, and lets the matrix unit contract the two over the sequence axis: entry `(b, h, l)` of the product counts
  the positions where both factors match, which for a non-negative token is where the token is `256·h + l`. It scales by
  the power of two `1/2048`, merges `(h, l)` into `256·h + l` and keeps the first 32000 columns. The reference scatters
  a `1` to `(b, docs[b, s])` for every position and divides by 2048. Both are exact counts scaled by `1/2048`, and no
  rounding enters over the extended reals.

  The two agree where every token is a valid column index, `0 ≤ docs < 32000`, which the precondition states. (A
  negative token wraps around in the reference's indexing and is counted there, while it matches no one-hot row of the
  kernel.)
-/
import proofs.«422579_j30631706755532_1_alg».proof.Defs
import proofs.«422579_j30631706755532_1_alg».proof.Proof.Gen.Kernel
import proofs.«422579_j30631706755532_1_alg».proof.Proof.Gen.Kernel.Skeleton
import proofs.«422579_j30631706755532_1_alg».proof.Proof.Gen.Kernel.Launch
import proofs.«422579_j30631706755532_1_alg».proof.Proof.Gen.Kernel.Points
import proofs.«422579_j30631706755532_1_alg».proof.Proof.Gen.Kernel.Frame
import proofs.«422579_j30631706755532_1_alg».proof.Proof.Gen.KernelIdeal
import proofs.«422579_j30631706755532_1_alg».proof.Proof.Gen.KernelIdeal.Skeleton
import proofs.«422579_j30631706755532_1_alg».proof.Proof.Gen.KernelIdeal.Launch
import proofs.«422579_j30631706755532_1_alg».proof.Proof.Gen.KernelIdeal.Points
import proofs.«422579_j30631706755532_1_alg».proof.Proof.Gen.KernelIdeal.Frame
import proofs.«422579_j30631706755532_1_alg».proof.Proof.Gen.ReferenceIdeal
import proofs.«422579_j30631706755532_1_alg».proof.Proof.Gen.Pre_any_inputs
import proofs.«422579_j30631706755532_1_alg».proof.Proof.Gen.ReferenceIdeal.Run
import proofs.«422579_j30631706755532_1_alg».proof.Proof.Gen.ReferenceIdeal.Read
import proofs.«422579_j30631706755532_1_alg».proof.Proof.HistSpec
import proofs.«422579_j30631706755532_1_alg».proof.Proof.TokenRange
import proofs.«422579_j30631706755532_1_alg».proof.Proof.RefValue
import proofs.«422579_j30631706755532_1_alg».proof.Proof.KernelValue
import Idealize.ShloMosaic.Adequacy
import Idealize.ShloMosaic.Init

noncomputable section

namespace Cert.Proof

open Idealize.ShloMosaic Idealize.SL.Sem

/-- The word-level kernel runs and leaves the tokens unchanged. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference runs and leaves the tokens unchanged: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Both programs end holding the histogram of the tokens, which are in range by the precondition. -/
theorem algebraic : Cert.algebraic_KernelIdeal_ReferenceIdeal := by
  intro m ρ m' ρ' hpre hagree
  have hr : ∀ (c : Dev Cert.KernelIdeal.nD) (i : Cert.KernelIdeal.S256x2048.Idx),
      0 ≤ (Cert.KernelIdeal.KValue.docs m c i).toInt ∧ (Cert.KernelIdeal.KValue.docs m c i).toInt < 32000 :=
    fun c i => Cert.Pre_any_inputs.Range.range_of_pre _ (hpre c) i
  refine ⟨fun c => Cert.Hist.hist (Cert.KernelIdeal.KValue.docs m c),
    Cert.KernelIdeal.KValue.run m ρ (fun c i => (hr c i).1), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, hagree c]
  exact Cert.ReferenceIdeal.RefValue.ref_eq_hist _ (hr c)

theorem claim : Cert.Claim :=
  ⟨Cert.Kernel.Gen.facts, Cert.KernelIdeal.Gen.facts, Cert.ReferenceIdeal.Gen.facts, Cert.Pre_any_inputs.Gen.facts,
    frame_k, frame_ki, frame_ri, trivial, algebraic⟩

end Cert.Proof

end
